-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S256x128 .f32) (main_arg7 : FVec F S256x128 .f32) (main_arg8 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x256 .f32) (main_arg1 : IVec S800000 32) (main_arg2 : IVec S800000 32) (main_arg3 : FVec F S256x256 .f32) (main_arg4 : FVec F S256x256 .f32) (main_arg5 : FVec F S256 .f32) (main_arg6 : FVec F S256x128 .f32) (main_arg7 : FVec F S256x128 .f32) (main_arg8 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_v13 main_v16
-- ==== Kernel.lean ====
abbrev S100000x256 : Shape := ⟨2, ![100000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S100000 : Shape := ⟨1, ![100000]⟩
abbrev S800000x1 : Shape := ⟨2, ![800000, 1]⟩
abbrev S800000x256 : Shape := ⟨2, ![800000, 256]⟩
abbrev S100000x1 : Shape := ⟨2, ![100000, 1]⟩
abbrev S1x256 : Shape := ⟨2, ![1, 256]⟩
abbrev S2000x256 : Shape := ⟨2, ![2000, 256]⟩
abbrev S1x128 : Shape := ⟨2, ![1, 128]⟩
abbrev S100000x128 : Shape := ⟨2, ![100000, 128]⟩
abbrev S2000x128 : Shape := ⟨2, ![2000, 128]⟩
abbrev S2000 : Shape := ⟨1, ![2000]⟩
abbrev S2000x1 : Shape := ⟨2, ![2000, 1]⟩

abbrev nBuf : Space → Nat
  | .hbm => 57
  | .vmem => 18
  | .smem => 0
  | _ => 0

abbrev bufTy : (tb : Table) → Fin (tcTables nBuf tb) → BufTy
  | .hbm, ⟨0, _⟩ => ⟨S100000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x128, .f32⟩
  | .hbm, ⟨7, _⟩ => ⟨S256x128, .f32⟩
  | .hbm, ⟨8, _⟩ => ⟨S128, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S100000, .f32⟩
  | .hbm, ⟨13, _⟩ => ⟨S800000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x256, .f32⟩
  | .hbm, ⟨30, _⟩ => ⟨S_, .f32⟩
  | .hbm, ⟨31, _⟩ => ⟨S100000x256, .f32⟩
  | .hbm, ⟨32, _⟩ => ⟨S800000x1, .i32⟩
  | .hbm, ⟨33, _⟩ => ⟨S100000x256, .f32⟩
  | .hbm, ⟨34, _⟩ => ⟨S100000x1, .f32⟩
  | .hbm, ⟨35, _⟩ => ⟨S100000x256, .f32⟩
  | .hbm, ⟨36, _⟩ => ⟨S100000x256, .f32⟩
  | .hbm, ⟨37, _⟩ => ⟨S1x256, .f32⟩
  | .hbm, ⟨38, _⟩ => ⟨S100000x256, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x256, .f32⟩
  | .hbm, ⟨48, _⟩ => ⟨S_, .f32⟩
  | .hbm, ⟨49, _⟩ => ⟨S100000x256, .f32⟩
  | .hbm, ⟨50, _⟩ => ⟨S800000x1, .i32⟩
  | .hbm, ⟨51, _⟩ => ⟨S100000x256, .f32⟩
  | .hbm, ⟨52, _⟩ => ⟨S100000x1, .f32⟩
  | .hbm, ⟨53, _⟩ => ⟨S100000x256, .f32⟩
  | .hbm, ⟨54, _⟩ => ⟨S100000x256, .f32⟩
  | .hbm, ⟨55, _⟩ => ⟨S1x128, .f32⟩
  | .hbm, ⟨56, _⟩ => ⟨S100000x128, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S256x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S_S100000x256 : S_.BroadcastsInDim S100000x256 (![] : Fin 0 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  shapeCasts_S128_S1x128 : S128.ShapeCasts S1x128
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  scatter_S100000_S800000x1_S800000_n_0_0_1_wf : ScatterDims.WF S100000 S800000x1 S800000 [] [0] [0] 1
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S100000x256.size a
  hwx0_1 : ∀ i : grid0.Coords, EltTy.bits .f32 = 32 ∨ (Rect.block (s := S100000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S100000x256.size a
  hwx0_5 : ∀ i : grid0.Coords, EltTy.bits .f32 = 32 ∨ (Rect.block (s := S100000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x256 : Shape := ⟨2, ![100000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S100000 : Shape := ⟨1, ![100000]⟩
abbrev S800000x1 : Shape := ⟨2, ![800000, 1]⟩
abbrev S800000x256 : Shape := ⟨2, ![800000, 256]⟩
abbrev S100000x1 : Shape := ⟨2, ![100000, 1]⟩
abbrev S1x256 : Shape := ⟨2, ![1, 256]⟩
abbrev S100000x128 : Shape := ⟨2, ![100000, 128]⟩
abbrev S1x128 : Shape := ⟨2, ![1, 128]⟩

abbrev nBuf : Space → Nat
  | .hbm => 87
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x128, .f32⟩
  | .hbm, ⟨7, _⟩ => ⟨S256x128, .f32⟩
  | .hbm, ⟨8, _⟩ => ⟨S128, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S100000, .f32⟩
  | .hbm, ⟨13, _⟩ => ⟨S800000x1, .i32⟩
  | .hbm, ⟨14, _⟩ => ⟨S100000, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x256, .f32⟩
  | .hbm, ⟨24, _⟩ => ⟨S_, .f32⟩
  | .hbm, ⟨25, _⟩ => ⟨S100000x256, .f32⟩
  | .hbm, ⟨26, _⟩ => ⟨S800000x1, .i32⟩
  | .hbm, ⟨27, _⟩ => ⟨S100000x256, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x256, .f32⟩
  | .hbm, ⟨33, _⟩ => ⟨S100000x256, .f32⟩
  | .hbm, ⟨34, _⟩ => ⟨S100000x256, .f32⟩
  | .hbm, ⟨35, _⟩ => ⟨S100000x256, .f32⟩
  | .hbm, ⟨36, _⟩ => ⟨S100000x256, .f32⟩
  | .hbm, ⟨37, _⟩ => ⟨S1x256, .f32⟩
  | .hbm, ⟨38, _⟩ => ⟨S100000x256, .f32⟩
  | .hbm, ⟨39, _⟩ => ⟨S100000x256, .f32⟩
  | .hbm, ⟨40, _⟩ => ⟨S_, .f32⟩
  | .hbm, ⟨41, _⟩ => ⟨S100000x256, .f32⟩
  | .hbm, ⟨42, _⟩ => ⟨S100000x256, .f32⟩
  | .hbm, ⟨43, _⟩ => ⟨S_, .f32⟩
  | .hbm, ⟨44, _⟩ => ⟨S800000, .f32⟩
  | .hbm, ⟨45, _⟩ => ⟨S_, .f32⟩
  | .hbm, ⟨46, _⟩ => ⟨S100000, .f32⟩
  | .hbm, ⟨47, _⟩ => ⟨S800000x1, .i32⟩
  | .hbm, ⟨48, _⟩ => ⟨S100000, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x256, .f32⟩
  | .hbm, ⟨58, _⟩ => ⟨S_, .f32⟩
  | .hbm, ⟨59, _⟩ => ⟨S100000x256, .f32⟩
  | .hbm, ⟨60, _⟩ => ⟨S800000x1, .i32⟩
  | .hbm, ⟨61, _⟩ => ⟨S100000x256, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x256, .f32⟩
  | .hbm, ⟨67, _⟩ => ⟨S100000x256, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000, .f32⟩
  | .hbm, ⟨80, _⟩ => ⟨S100000x1, .f32⟩
  | .hbm, ⟨81, _⟩ => ⟨S100000x1, .f32⟩
  | .hbm, ⟨82, _⟩ => ⟨S_, .f32⟩
  | .hbm, ⟨83, _⟩ => ⟨S100000x1, .f32⟩
  | .hbm, ⟨84, _⟩ => ⟨S100000x1, .f32⟩
  | .hbm, ⟨85, _⟩ => ⟨S100000x128, .f32⟩
  | .hbm, ⟨86, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_call2_v0 : Ref sig .tc := ⟨.hbm, 77, rfl⟩
abbrev main_call2_cst : Ref sig .tc := ⟨.hbm, 78, rfl⟩
abbrev main_call2_v1 : Ref sig .tc := ⟨.hbm, 79, rfl⟩
abbrev main_call2_v2 : Ref sig .tc := ⟨.hbm, 80, rfl⟩
abbrev main_v52 : Ref sig .tc := ⟨.hbm, 81, rfl⟩
abbrev main_cst_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S_S100000x256 : S_.BroadcastsInDim S100000x256 (![] : Fin 0 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  scatter_S100000_S800000x1_S800000_n_0_0_1_wf : ScatterDims.WF S100000 S800000x1 S800000 [] [0] [0] 1
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S100000x256_S256x256_S100000x256_1_0_0_1_n_n_wf : DotDims.WF S100000x256 S256x256 S100000x256 [1] [0] [0] [1] [] []
  dot_S100000x256_S256x128_S100000x128_1_0_0_1_n_n_wf : DotDims.WF S100000x256 S256x128 S100000x128 [1] [0] [0] [1] [] []

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.Spec.lean ====
/-
  A two-layer mean-aggregating graph layer, as one function of its arrays, index by index, on the extended reals.

  A dense layer at node row `r` and output feature `q` is `max (Σₖ h[r,k]·Ws[k,q] + Σₖ mean[r,k]·Wn[k,q] + b[q], 0)`:
  the node's own features and the mean of its in-neighbours' features, each through its weight matrix, plus the bias,
  clamped below at zero. The second layer then divides each row by its Euclidean norm, the norm clamped below at a small
  positive constant. Summing the products in blocks of rows or over the whole matrix gives the same value: a row of the
  result depends on that row of `h` and of `mean` only.

  The one algebraic step between the two programs is in the mean: one multiplies the neighbour sum by the reciprocal
  `1 / max (deg, 1)`, the other divides it by `max (deg, 1)`. On the extended reals the quotient by a divisor other
  than zero IS the product with the divisor's inverse (at the infinities too), and `max (deg, 1) ≥ 1` is never zero,
  so the two agree for every value of the neighbour sum and of the degree.
-/
import Idealize.ShloMosaic.PureOps.Ideal
import Idealize.ShloMosaic.PureOps.IdealRules
import Idealize.ShloMosaic.Lib.ValueIdx

noncomputable section

namespace Cert.Sage

open Idealize.ShloMosaic Idealize.ShloMosaic.ValueIdx

/-- The floor under a row's norm: the single-precision literal both programs write for `1e-12`. -/
abbrev normFloor : EReal := Ideal.ofBits .f32 0x2B8CBCCC#32

/-- A dense layer at row `r`, feature `q`: the row of `h` through `ws`, the row of `mean` through `wn`, the bias,
    clamped below at zero. -/
def dense {n d e : Nat} (h mean : (⟨2, ![n, d]⟩ : Shape).Idx → EReal) (ws wn : (⟨2, ![d, e]⟩ : Shape).Idx → EReal)
    (b : Fin e → EReal) (r : Fin n) (q : Fin e) : EReal :=
  max (((∑ k : Fin d, h (ix2 r k) * ws (ix2 k q)) + ∑ k : Fin d, mean (ix2 r k) * wn (ix2 k q)) + b q) 0

/-- The layer's whole output array. -/
def layer {n d e : Nat} (h mean : (⟨2, ![n, d]⟩ : Shape).Idx → EReal) (ws wn : (⟨2, ![d, e]⟩ : Shape).Idx → EReal)
    (b : Fin e → EReal) : (⟨2, ![n, e]⟩ : Shape).Idx → EReal :=
  fun i => dense h mean ws wn b (i 0) (i 1)

/-- The layer followed by the division of each row by its norm: `a[r,q] / max (√(Σₖ a[r,k]²), floor)`. -/
def layerNormed {n d e : Nat} (h mean : (⟨2, ![n, d]⟩ : Shape).Idx → EReal) (ws wn : (⟨2, ![d, e]⟩ : Shape).Idx → EReal)
    (b : Fin e → EReal) : (⟨2, ![n, e]⟩ : Shape).Idx → EReal :=
  fun i => Ideal.div (dense h mean ws wn b (i 0) (i 1))
    (max (Ideal.sqrt (∑ k : Fin e, dense h mean ws wn b (i 0) k * dense h mean ws wn b (i 0) k)) normFloor)

/-- The single-precision pattern of `1.0` denotes the real one. -/
theorem ofBits_one : Ideal.ofBits .f32 0x3F800000#32 = 1 := IdealRules.sign_bit.ideal_onePat .f32

/-- A degree clamped below at one is not zero. -/
theorem max_one_ne_zero (x : EReal) : max x 1 ≠ 0 :=
  ne_of_gt (lt_of_lt_of_le zero_lt_one (le_max_right x 1))

/-- The product with the reciprocal of a divisor other than zero is the quotient by it, for every extended real
    numerator and divisor: both are the product with the divisor's inverse. -/
theorem mul_recip_eq_div (s d : EReal) (hd : d ≠ 0) : s * Ideal.div 1 d = Ideal.div s d := by
  unfold Ideal.div
  rw [if_neg hd, if_neg hd, one_mul]

end Cert.Sage

end
-- ==== Proof.KernelHost.lean ====
/-
  The host operations around the two regions, read as pure terms of the launch arrays.

  Before each region the program gathers the rows of a feature array at the edges' source nodes (a negative
  index wrapped by the node count), adds them into the rows of their destination nodes, and multiplies each
  destination row by the reciprocal of its in-degree clamped below at one; the in-degree is the sum of ones
  over the edges into the node, and the reciprocal is taken once, before the first region, and used by both
  stretches. A bias vector is handed to its region as a one-row matrix. The weight matrices, the edge lists and
  the node features reach the regions as launched: no host operation writes an argument.
-/
import proofs.«149797_j18906446037603_1_alg».proof.Proof.Gen.KernelIdeal.Frame
import Idealize.ShloMosaic.Lib.StableHlo.Run
import Idealize.ShloMosaic.Lib.Pipeline.Value
import Idealize.ShloMosaic.Lib.IdealHost
import proofs.«149797_j18906446037603_1_alg».proof.Proof.Spec

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo

variable {F : FTy → Type} [FloatOps F]

/-- The source indices with the negative ones wrapped by the node count. -/
def wrapped (src : IVec S800000 32) : IVec S800000 32 :=
  select (cmpi .slt src (broadcastInDim S800000 ![] bcast_S_S800000 (constantI S_ 32 0#32)))
    (addi src (broadcastInDim S800000 ![] bcast_S_S800000 (constantI S_ 32 100000#32))) src

/-- The rows of `h` at the edges' sources, added into the rows of their destinations. -/
def nbrSum (h : FVec F S100000x256 .f32) (src dst : IVec S800000 32) : FVec F S100000x256 .f32 :=
  Host.scatterAdd scatter_S100000x256_S800000x1_S800000x256_1_0_0_1
    (broadcastInDim S100000x256 ![] bcast_S_S100000x256 (constant S_ .f32 0x00000000#32))
    (broadcastInDim S800000x1 ![0] bcast_S800000_S800000x1_0 dst)
    (Host.gather gather_S100000x256_S800000x1_S800000x256_1_0_n_n_0_1_1256 h
      (broadcastInDim S800000x1 ![0] bcast_S800000_S800000x1_0 (wrapped src)))

/-- A node's in-degree clamped below at one. -/
def clampedDeg (dst : IVec S800000 32) : FVec F S100000 .f32 :=
  maximumf
    (Host.scatterAdd scatter_S100000_S800000x1_S800000_n_0_0_1
      (broadcastInDim S100000 ![] bcast_S_S100000 (constant S_ .f32 0x00000000#32))
      (broadcastInDim S800000x1 ![0] bcast_S800000_S800000x1_0 dst)
      (broadcastInDim S800000 ![] bcast_S_S800000 (constant S_ .f32 0x3F800000#32)))
    (broadcastInDim S100000 ![] bcast_S_S100000 (constant S_ .f32 0x3F800000#32))

/-- The reciprocal of the clamped in-degree. -/
def recipDeg (dst : IVec S800000 32) : FVec F S100000 .f32 :=
  Host.divf (broadcastInDim S100000 ![] bcast_S_S100000 (constant S_ .f32 0x3F800000#32)) (clampedDeg dst)

/-- A per-node value laid along every feature of the node's row. -/
def alongRow (x : FVec F S100000 .f32) : FVec F S100000x256 .f32 :=
  broadcastInDim S100000x256 ![0, 1] bcast_S100000x1_S100000x256_0_1 (broadcastInDim S100000x1 ![0] bcast_S100000_S100000x1_0 x)

/-- The neighbour mean as this program takes it: the neighbour sum times the reciprocal degree. -/
def mean (h : FVec F S100000x256 .f32) (src dst : IVec S800000 32) : FVec F S100000x256 .f32 :=
  mulf (nbrSum h src dst) (alongRow (recipDeg dst))

variable (m : (ℓ : Loc nD τ sig) → Buf (Elt F) ℓ) (ρ : Dev nD → PrngReg)

/-! ## Before the first region -/

theorem W1_arg0 (c : Dev nD) : W1 m ρ c (Proc.devRef .tc main_arg0) = m ((c : Thread nD τ).loc main_arg0) := by
  show after hostOps0 (W0 m ρ c) (Proc.devRef .tc main_arg0) = _
  dsimp only [hostOps0]; after_results_simp <;> rfl
theorem W1_arg1 (c : Dev nD) : W1 m ρ c (Proc.devRef .tc main_arg1) = m ((c : Thread nD τ).loc main_arg1) := by
  show after hostOps0 (W0 m ρ c) (Proc.devRef .tc main_arg1) = _
  dsimp only [hostOps0]; after_results_simp <;> rfl
theorem W1_arg2 (c : Dev nD) : W1 m ρ c (Proc.devRef .tc main_arg2) = m ((c : Thread nD τ).loc main_arg2) := by
  show after hostOps0 (W0 m ρ c) (Proc.devRef .tc main_arg2) = _
  dsimp only [hostOps0]; after_results_simp <;> rfl
theorem W1_arg3 (c : Dev nD) : W1 m ρ c (Proc.devRef .tc main_arg3) = m ((c : Thread nD τ).loc main_arg3) := by
  show after hostOps0 (W0 m ρ c) (Proc.devRef .tc main_arg3) = _
  dsimp only [hostOps0]; after_results_simp <;> rfl
theorem W1_arg4 (c : Dev nD) : W1 m ρ c (Proc.devRef .tc main_arg4) = m ((c : Thread nD τ).loc main_arg4) := by
  show after hostOps0 (W0 m ρ c) (Proc.devRef .tc main_arg4) = _
  dsimp only [hostOps0]; after_results_simp <;> rfl
theorem W1_arg6 (c : Dev nD) : W1 m ρ c (Proc.devRef .tc main_arg6) = m ((c : Thread nD τ).loc main_arg6) := by
  show after hostOps0 (W0 m ρ c) (Proc.devRef .tc main_arg6) = _
  dsimp only [hostOps0]; after_results_simp <;> rfl
theorem W1_arg7 (c : Dev nD) : W1 m ρ c (Proc.devRef .tc main_arg7) = m ((c : Thread nD τ).loc main_arg7) := by
  show after hostOps0 (W0 m ρ c) (Proc.devRef .tc main_arg7) = _
  dsimp only [hostOps0]; after_results_simp <;> rfl
theorem W1_arg8 (c : Dev nD) : W1 m ρ c (Proc.devRef .tc main_arg8) = m ((c : Thread nD τ).loc main_arg8) := by
  show after hostOps0 (W0 m ρ c) (Proc.devRef .tc main_arg8) = _
  dsimp only [hostOps0]; after_results_simp <;> rfl

/-- The reciprocal degrees, computed before the first region. -/
theorem W1_v7 (c : Dev nD) : W1 m ρ c (Proc.devRef .tc main_v7) = recipDeg (F := F) (m ((c : Thread nD τ).loc main_arg2)) := by
  show after hostOps0 (W0 m ρ c) (Proc.devRef .tc main_v7) = _
  dsimp only [hostOps0]; after_results_simp <;> rfl

/-- The first region's neighbour means. -/
theorem W1_v20 (c : Dev nD) : W1 m ρ c (Proc.devRef .tc main_v20)
    = mean (F := F) (m ((c : Thread nD τ).loc main_arg0)) (m ((c : Thread nD τ).loc main_arg1)) (m ((c : Thread nD τ).loc main_arg2)) := by
  show after hostOps0 (W0 m ρ c) (Proc.devRef .tc main_v20) = _
  dsimp only [hostOps0]; after_results_simp <;> rfl

/-- The first bias as a one-row matrix. -/
theorem W1_v21 (c : Dev nD) : W1 m ρ c (Proc.devRef .tc main_v21)
    = shapeCast S1x256 (m ((c : Thread nD τ).loc main_arg5)) shapeCasts_S256_S1x256 := by
  show after hostOps0 (W0 m ρ c) (Proc.devRef .tc main_v21) = _
  dsimp only [hostOps0]; after_results_simp <;> rfl

/-! ## At the first region's exit: its output array at what its write-backs leave, every other buffer as entered -/

theorem W2_v22 (c : Dev nD) : W2 m ρ c (Proc.devRef .tc main_v22) = (dat0 (V1 m ρ) c).arrAt 5 cfg0.N := W2_arr m ρ c 5
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_v7 (c : Dev nD) : W2 m ρ c (Proc.devRef .tc main_v7) = recipDeg (F := F) (m ((c : Thread nD τ).loc main_arg2)) :=
  (W2_of_ne m ρ c main_v7 (by decide)).trans (W1_v7 m ρ c)

/-! ## Before the second region -/

/-- The first layer's output reaches the second region as the first region left it. -/
theorem W3_v22 (c : Dev nD) : W3 m ρ c (Proc.devRef .tc main_v22) = (dat0 (V1 m ρ) c).arrAt 5 cfg0.N := by
  show after hostOps1 (W2 m ρ c) (Proc.devRef .tc main_v22) = _
  dsimp only [hostOps1]; after_results_simp
  exact W2_v22 m ρ c
theorem W3_arg6 (c : Dev nD) : W3 m ρ c (Proc.devRef .tc main_arg6) = m ((c : Thread nD τ).loc main_arg6) := by
  show after hostOps1 (W2 m ρ c) (Proc.devRef .tc main_arg6) = _
  dsimp only [hostOps1]; after_results_simp
  exact W2_arg6 m ρ c
theorem W3_arg7 (c : Dev nD) : W3 m ρ c (Proc.devRef .tc main_arg7) = m ((c : Thread nD τ).loc main_arg7) := by
  show after hostOps1 (W2 m ρ c) (Proc.devRef .tc main_arg7) = _
  dsimp only [hostOps1]; after_results_simp
  exact W2_arg7 m ρ c

/-- The second region's neighbour means: of the first layer's output, with the reciprocal degrees taken before the
    first region. -/
theorem W3_v35 (c : Dev nD) : W3 m ρ c (Proc.devRef .tc main_v35)
    = mean (F := F) ((dat0 (V1 m ρ) c).arrAt 5 cfg0.N) (m ((c : Thread nD τ).loc main_arg1)) (m ((c : Thread nD τ).loc main_arg2)) := by
  show after hostOps1 (W2 m ρ c) (Proc.devRef .tc main_v35) = _
  dsimp only [hostOps1]; after_results_simp
  rw [W2_v22 m ρ c, W2_v7 m ρ c, W2_arg1 m ρ c, W2_arg2 m ρ c]
  rfl

/-- The second bias as a one-row matrix. -/
theorem W3_v36 (c : Dev nD) : W3 m ρ c (Proc.devRef .tc main_v36)
    = shapeCast S1x128 (m ((c : Thread nD τ).loc main_arg8)) shapeCasts_S128_S1x128 := by
  show after hostOps1 (W2 m ρ c) (Proc.devRef .tc main_v36) = _
  dsimp only [hostOps1]; after_results_simp
  rw [W2_arg8 m ρ c]
  rfl

/-! ## The mean's factors at an index, on the extended reals -/

/-- A per-node value laid along its row reads, at `(r, q)`, the node's value. -/
theorem alongRow_apply (x : FVec Ideal S100000 .f32) (i : S100000x256.Idx) :
    alongRow x i = x (ValueIdx.ix1 (n := 100000) (i 0)) := by
  unfold alongRow
  generalize hy : broadcastInDim S100000x1 ![0] bcast_S100000_S100000x1_0 x = y
  rw [broadcastInDim_apply _ bcast_S100000x1_S100000x256_0_1 y i (ValueIdx.ix2 (n0 := 100000) (n1 := 1) (i 0) (0 : Fin 1)) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])]
  subst hy
  exact broadcastInDim_apply _ bcast_S100000_S100000x1_0 x _ (ValueIdx.ix1 (n := 100000) (i 0)) (fun a => match a with
    | ⟨0, _⟩ => by show (i 0).val = if (100000 : Nat) = 1 then 0 else (i 0).val; rw [if_neg (by decide)])

/-- The constant one at every node. -/
theorem one_apply (j : S100000.Idx) :
    broadcastInDim S100000 ![] bcast_S_S100000 (constant (F := Ideal) S_ .f32 0x3F800000#32) j = 1 :=
  (ValueIdx.broadcastInDim_scalar_apply bcast_S_S100000 _ j).trans Cert.Sage.ofBits_one

/-- The reciprocal degree at a node: one over the clamped degree. -/
theorem recipDeg_apply (dst : IVec S800000 32) (j : S100000.Idx) :
    recipDeg (F := Ideal) dst j = Ideal.div 1 (clampedDeg (F := Ideal) dst j) := by
  unfold recipDeg
  rw [ValueIdx.hostDivf_apply, one_apply]

end Cert.KernelIdeal.HostValue

end
-- ==== Proof.KernelValue.lean ====
/-
  What the idealized kernel's result array holds after the run, as one function of the launch arrays.

  The second region leaves, in the result array, the normalised dense layer of what it finds: the first layer's
  output, the neighbour means of that output, the second weights and the second bias as a row. The first layer's
  output is what the first region left: the dense layer of the node features, their neighbour means, the first
  weights and the first bias as a row. Nothing between the regions writes an argument or the first layer's output,
  and a bias handed over as a one-row matrix reads, at column `q`, the bias at `q`.
-/
import proofs.«149797_j18906446037603_1_alg».proof.Proof.KernelRun
import proofs.«149797_j18906446037603_1_alg».proof.Proof.KernelHost
import proofs.«149797_j18906446037603_1_alg».proof.Proof.Spec
import Idealize.ShloMosaic.Lib.Pipeline.Value
import Idealize.ShloMosaic.Lib.ValueIdx

set_option maxRecDepth 16384

noncomputable section

namespace Cert.KernelIdeal.FinalValue

open Cert.KernelIdeal Cert.KernelIdeal.Gen Cert.KernelIdeal.HostValue
open Idealize.ShloMosaic Idealize.ShloMosaic.TcCoe Idealize.SL.Sem Idealize.ShloMosaic.ValueIdx

/-- What a region's value lemma says of the first region, at any contents `V` it is entered from. -/
def FirstRegion : Prop :=
  ∀ (V : (c : Dev nD) → (b : Ref sig .tc) → Buf (Elt Ideal) ((c : Thread nD τ).loc b)) (c : Dev nD),
    (dat0 (F := Ideal) V c).arrAt 5 cfg0.N
      = Cert.Sage.layer (n := 100000) (d := 256) (e := 256) (V c main_arg0) (V c main_v20) (V c main_arg3) (V c main_arg4)
          (fun q => V c main_v21 (ix2 (0 : Fin 1) q))

/-- The same of the second region. -/
def SecondRegion : Prop :=
  ∀ (V : (c : Dev nD) → (b : Ref sig .tc) → Buf (Elt Ideal) ((c : Thread nD τ).loc b)) (c : Dev nD),
    (dat1 (F := Ideal) V c).arrAt 5 cfg1.N
      = Cert.Sage.layerNormed (n := 100000) (d := 256) (e := 128) (V c main_v22) (V c main_v35) (V c main_arg6) (V c main_arg7)
          (fun q => V c main_v36 (ix2 (0 : Fin 1) q))

/-- The first layer's output, of the launch arrays. -/
def hidden (x0 : FVec Ideal S100000x256 .f32) (x1 x2 : IVec S800000 32) (x3 x4 : FVec Ideal S256x256 .f32) (x5 : FVec Ideal S256 .f32) :
    FVec Ideal S100000x256 .f32 :=
  Cert.Sage.layer (n := 100000) (d := 256) (e := 256) x0 (mean x0 x1 x2) x3 x4 (fun q => x5 (ix1 (n := 256) q))

/-- The result, of the launch arrays. -/
def result (x0 : FVec Ideal S100000x256 .f32) (x1 x2 : IVec S800000 32) (x3 x4 : FVec Ideal S256x256 .f32) (x5 : FVec Ideal S256 .f32)
    (x6 x7 : FVec Ideal S256x128 .f32) (x8 : FVec Ideal S128 .f32) : FVec Ideal S100000x128 .f32 :=
  Cert.Sage.layerNormed (n := 100000) (d := 256) (e := 128) (hidden x0 x1 x2 x3 x4 x5) (mean (hidden x0 x1 x2 x3 x4 x5) x1 x2) x6 x7
    (fun q => x8 (ix1 (n := 128) q))

/-- A vector of 256 entries as a one-row matrix reads, at column `q`, its entry `q`. -/
theorem biasRow256 (b : FVec Ideal S256 .f32) (q : Fin 256) :
    shapeCast S1x256 b shapeCasts_S256_S1x256 (ix2 (0 : Fin 1) q) = b (ix1 (n := 256) q) :=
  shapeCast_apply b shapeCasts_S256_S1x256 _ _ (by
    rw [Shape.rowMajor_val_two, Shape.rowMajor_val_one]
    show q.val = 0 * 256 + q.val
    omega)

/-- The same for 128 entries. -/
theorem biasRow128 (b : FVec Ideal S128 .f32) (q : Fin 128) :
    shapeCast S1x128 b shapeCasts_S128_S1x128 (ix2 (0 : Fin 1) q) = b (ix1 (n := 128) q) :=
  shapeCast_apply b shapeCasts_S128_S1x128 _ _ (by
    rw [Shape.rowMajor_val_two, Shape.rowMajor_val_one]
    show q.val = 0 * 128 + q.val
    omega)

variable (m : (ℓ : Loc nD τ sig) → Buf (Elt Ideal) ℓ) (ρ : Dev nD → PrngReg)

/-- The first region leaves the first layer's output. -/
theorem hidden_eq (h0 : FirstRegion) (c : Dev nD) :
    (dat0 (V1 m ρ) c).arrAt 5 cfg0.N
      = hidden (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [h0 (V1 m ρ) c]
  show Cert.Sage.layer (n := 100000) (d := 256) (e := 256) (W1 m ρ c (Proc.devRef .tc main_arg0)) (W1 m ρ c (Proc.devRef .tc main_v20))
      (W1 m ρ c (Proc.devRef .tc main_arg3)) (W1 m ρ c (Proc.devRef .tc main_arg4))
      (fun q => W1 m ρ c (Proc.devRef .tc main_v21) (ix2 (0 : Fin 1) q)) = _
  rw [W1_arg0 m ρ c, W1_v20 m ρ c, W1_arg3 m ρ c, W1_arg4 m ρ c, W1_v21 m ρ c]
  unfold hidden
  congr 1
  funext q
  exact biasRow256 _ q

/-- The second region leaves the result. -/
theorem out_eq (h0 : FirstRegion) (h1 : SecondRegion) (c : Dev nD) :
    W4 m ρ c (Proc.devRef .tc main_v37)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  refine (W4_arr m ρ c 5).trans ?_
  rw [h1 (V3 m ρ) c]
  show Cert.Sage.layerNormed (n := 100000) (d := 256) (e := 128) (W3 m ρ c (Proc.devRef .tc main_v22)) (W3 m ρ c (Proc.devRef .tc main_v35))
      (W3 m ρ c (Proc.devRef .tc main_arg6)) (W3 m ρ c (Proc.devRef .tc main_arg7))
      (fun q => W3 m ρ c (Proc.devRef .tc main_v36) (ix2 (0 : Fin 1) q)) = _
  rw [W3_v22 m ρ c, W3_v35 m ρ c, W3_arg6 m ρ c, W3_arg7 m ρ c, W3_v36 m ρ c, hidden_eq m ρ h0 c]
  unfold result
  congr 1
  funext q
  exact biasRow128 _ q

/-- The run, read: the result array at `result` of the launch arrays, the arguments as launched. -/
theorem run (h0 : FirstRegion) (h1 : SecondRegion) :
    θ_run defs (onTc (τ := τ) (main (F := Ideal))) ⟨m, fun _ => 0, ρ⟩ (fun r => ∀ c : Dev nD,
      r.2.mem ((c.tc : Thread nD τ).loc main_v37)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (out_eq m ρ h0 h1 c), (h c).2⟩)
    (Cert.KernelIdeal.RunValue.run_named m ρ)

end Cert.KernelIdeal.FinalValue

end
-- ==== Proof.LibKeepdims.lean ====
/-
  Column forms of a kept unit axis, read at an index: a vector `[a]` viewed as the column `[a, 1]` reads its entry at
  the row, and a column `[a, 1]` broadcast along its unit axis to `[a, b]` reads, at `(p, c)`, the column's entry
  in row `p`. Together with the row forms (`[a]` as `[1, a]`, and `[1, b]` over `[a, b]`) these read a sum that
  keeps its reduced axis and is then broadcast against a two-dimensional tile.
-/
import Idealize.ShloMosaic.Lib.Pipeline.Value
import Idealize.ShloMosaic.Lib.ValueIdx

noncomputable section

namespace Cert.LibKeepdims

open Idealize.ShloMosaic Idealize.ShloMosaic.ValueIdx

variable {α : Type}

/-- A vector `[a]` cast to the column `[a, 1]` reads, at `(i, u)`, the vector at `i`: both have row-major position `i`,
    the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is
    kept (or is `0` already when `a = 1`), the unit axis reads its only coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.Region0Value.lean ====
/-
  The first region's output array, as one function of the arrays the region finds.

  The region runs fifty grid points; point `t` stages rows `2000·t … 2000·t + 1999` of the node features and of the
  neighbour means, the two whole weight matrices and the bias row, and writes back the same rows of the output. What
  it stores at row `p` of its block and feature `q` is `max (Σₖ a[p,k]·Ws[k,q] + Σₖ m[p,k]·Wn[k,q] + b[q], 0)`: each
  matrix product into a zero accumulator is the plain sum over the shared coordinate, the narrowing of the factors
  to the shorter format is the identity on the extended reals, and the bias row laid over every row reads its
  column. Row `p` of a block is row `2000·t + p` of its array, so the stored value is the dense layer at that row;
  the fifty blocks of rows tile the output, so the array ends holding the layer.
-/
import proofs.«149797_j18906446037603_1_alg».proof.Proof.Gen.KernelIdeal.Frame
import proofs.«149797_j18906446037603_1_alg».proof.Proof.Spec
import proofs.«149797_j18906446037603_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, spelt as a constant function. -/
theorem hz : (![0, 0] : Fin 2 → Nat) = fun _ => 0 := funext fun a => by fin_cases a <;> rfl

/-! ## The product of a row block with a weight matrix, read at an entry -/

/-- The left operand's index keeps the result's row … -/
theorem lhs_rows_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- … and takes the summation index as its column. -/
theorem lhs_rows_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- The right operand's index takes the summation index as its row … -/
theorem rhs_weights_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
/-- … and keeps the result's column. -/
theorem rhs_weights_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A block of 2000 rows times a 256 × 256 weight matrix, accumulated into zero, is at `(p, q)` the sum over `k` of
    `a[p,k] · w[k,q]`. -/
theorem rows_times_weights_apply {φ₁ φ₂ : FTy} (a : FVec Ideal S2000x256 φ₁) (w : FVec Ideal S256x256 φ₂) (p : Fin 2000) (q : Fin 256) :
    matmul dot_S2000x256_S256x256_S2000x256_1_0_0_1_n_n none a w (constant (F := Ideal) S2000x256 .f32 0x00000000#32) (ix2 p q)
      = ∑ k : Fin 256, a (ix2 p k) * w (ix2 k q) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs_rows_0 _ _
    | ⟨1, _⟩ => exact (lhs_rows_1 _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhs_weights_0 _ _).trans hk
    | ⟨1, _⟩ => exact rhs_weights_1 _ _)
  rw [el, er]

/-! ## The body's arithmetic at an entry -/

/-- The value the body stores, at row `p` of the block and feature `q`: the row of the first block through the first
    weight matrix, the row of the second through the second, the bias, clamped below at zero. The narrowing of the
    operands to the shorter format is the identity on the extended reals. -/
theorem pay_apply (x0 x1 : Vec Ideal S2000x256 .f32) (x2 x3 : Vec Ideal S256x256 .f32) (x4 : Vec Ideal S1x256 .f32) (p : Fin 2000) (q : Fin 256) :
    k0_pay1 x0 x1 x2 x3 x4 (ix2 p q)
      = max (((∑ k : Fin 256, x0 (ix2 p k) * x2 (ix2 k q)) + ∑ k : Fin 256, x1 (ix2 p k) * x3 (ix2 k q)) + x4 (ix2 (0 : Fin 1) q)) 0 := by
  unfold k0_pay1
  rw [maximumf_apply, addf_apply, addf_apply, broadcast_apply, rows_times_weights_apply, rows_times_weights_apply,
    shapeCast_self, shapeCast_self, broadcastTo_1b_ab_apply]
  simp only [truncf_apply]
  show max _ (Ideal.ofBits .f32 0x00000000#32) = _
  rw [Ideal.ofBits_zero_f32]

/-! ## A row of a block at an entry is the layer at the row of the array it was cut from -/

/-- If row `p` of the two staged blocks is row `r` of the two arrays, and the staged weights and bias are the arrays'
    in column `q`, the stored value at `(p, q)` is the dense layer at `(r, q)`. -/
theorem pay_eq_dense (A0 A1 : S100000x256.Idx → EReal) (W0 W1 : S256x256.Idx → EReal) (B : S1x256.Idx → EReal)
    (x0 x1 : Vec Ideal S2000x256 .f32) (x2 x3 : Vec Ideal S256x256 .f32) (x4 : Vec Ideal S1x256 .f32)
    (r : Fin 100000) (p : Fin 2000) (q : Fin 256)
    (h0 : ∀ k : Fin 256, x0 (ix2 p k) = A0 (ix2 r k)) (h1 : ∀ k : Fin 256, x1 (ix2 p k) = A1 (ix2 r k))
    (h2 : ∀ k : Fin 256, x2 (ix2 k q) = W0 (ix2 k q)) (h3 : ∀ k : Fin 256, x3 (ix2 k q) = W1 (ix2 k q))
    (h4 : x4 (ix2 (0 : Fin 1) q) = B (ix2 (0 : Fin 1) q)) :
    k0_pay1 x0 x1 x2 x3 x4 (ix2 p q)
      = Cert.Sage.dense (n := 100000) (d := 256) (e := 256) A0 A1 W0 W1 (fun q => B (ix2 (0 : Fin 1) q)) r q := by
  rw [pay_apply]
  unfold Cert.Sage.dense
  simp only [h0, h1, h2, h3, h4]

/-! ## Where each window's block lies in its array -/

/-- The index maps over the grid: the two row windows and the output move one block of rows per point and stay in
    column block zero; the weights and the bias stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ t.val < 50 :=
  (by decide +kernel : ∀ t : Fin grid0.N, _)

/-- Every block of rows is some point's. -/
theorem rows_onto : ∀ b : Fin 50, ∃ t : Fin cfg0.N, win0_5.index t = ![b.val, 0] :=
  (by decide +kernel : ∀ b : Fin 50, ∃ t : Fin grid0.N, win0_5.index t = ![b.val, 0])

/-- Row `p`, column `k` of the node-feature window's block at point `t` is row `2000·t + p`, column `k` of the array. -/
theorem emb_features (t : Fin cfg0.N) (p : Fin 2000) (k : Fin 256) (r : Fin 100000) (hr : r.val = 2000 * t.val + p.val) :
    ((cfg0.win 0).blk t).view.emb (ix2 p k) = (ix2 r k : S100000x256.Idx) := by
  obtain ⟨e0, e1, -⟩ := idx_facts t
  funext a; apply Fin.ext
  match a with
  | ⟨0, _⟩ => show win0_0.index t (0 : Fin 2) * 2000 + 1 * p.val = r.val; omega
  | ⟨1, _⟩ => show win0_0.index t (1 : Fin 2) * 256 + 1 * k.val = k.val; omega

/-- The same for the neighbour-mean window. -/
theorem emb_means (t : Fin cfg0.N) (p : Fin 2000) (k : Fin 256) (r : Fin 100000) (hr : r.val = 2000 * t.val + p.val) :
    ((cfg0.win 1).blk t).view.emb (ix2 p k) = (ix2 r k : S100000x256.Idx) := by
  obtain ⟨-, -, e0, e1, -⟩ := idx_facts t
  funext a; apply Fin.ext
  match a with
  | ⟨0, _⟩ => show win0_1.index t (0 : Fin 2) * 2000 + 1 * p.val = r.val; omega
  | ⟨1, _⟩ => show win0_1.index t (1 : Fin 2) * 256 + 1 * k.val = k.val; omega

/-- The first weight matrix's window is the whole matrix at every point. -/
theorem emb_selfWeights (t : Fin cfg0.N) (k q : Fin 256) :
    ((cfg0.win 2).blk t).view.emb (ix2 k q) = (ix2 k q : S256x256.Idx) := by
  obtain ⟨-, -, -, -, e0, e1, -⟩ := idx_facts t
  funext a; apply Fin.ext
  match a with
  | ⟨0, _⟩ => show win0_2.index t (0 : Fin 2) * 256 + 1 * k.val = k.val; omega
  | ⟨1, _⟩ => show win0_2.index t (1 : Fin 2) * 256 + 1 * q.val = q.val; omega

/-- So is the second weight matrix's. -/
theorem emb_neighWeights (t : Fin cfg0.N) (k q : Fin 256) :
    ((cfg0.win 3).blk t).view.emb (ix2 k q) = (ix2 k q : S256x256.Idx) := by
  obtain ⟨-, -, -, -, -, -, e0, e1, -⟩ := idx_facts t
  funext a; apply Fin.ext
  match a with
  | ⟨0, _⟩ => show win0_3.index t (0 : Fin 2) * 256 + 1 * k.val = k.val; omega
  | ⟨1, _⟩ => show win0_3.index t (1 : Fin 2) * 256 + 1 * q.val = q.val; omega

/-- And the bias row's. -/
theorem emb_bias (t : Fin cfg0.N) (u : Fin 1) (q : Fin 256) :
    ((cfg0.win 4).blk t).view.emb (ix2 u q) = (ix2 u q : S1x256.Idx) := by
  obtain ⟨-, -, -, -, -, -, -, -, e0, e1, -⟩ := idx_facts t
  funext a; apply Fin.ext
  match a with
  | ⟨0, _⟩ => show win0_4.index t (0 : Fin 2) * 1 + 1 * u.val = u.val; omega
  | ⟨1, _⟩ => show win0_4.index t (1 : Fin 2) * 256 + 1 * q.val = q.val; omega

/-- Row `p`, column `q` of the output window's block at point `t` is row `2000·t + p`, column `q` of the output array. -/
theorem emb_out (t : Fin cfg0.N) (p : Fin 2000) (q : Fin 256) (r : Fin 100000) (hr : r.val = 2000 * t.val + p.val) :
    ((cfg0.win 5).blk t).view.emb (ix2 p q) = (ix2 r q : S100000x256.Idx) := by
  obtain ⟨-, -, -, -, -, -, -, -, -, -, e0, e1, -⟩ := idx_facts t
  funext a; apply Fin.ext
  match a with
  | ⟨0, _⟩ => show win0_5.index t (0 : Fin 2) * 2000 + 1 * p.val = r.val; omega
  | ⟨1, _⟩ => show win0_5.index t (1 : Fin 2) * 256 + 1 * q.val = q.val; omega

/-! ## What a point writes back, and the whole array -/

/-- What point `t` writes back is block `t` of the dense layer of the arrays the region finds. -/
theorem flushed_eq (c : Dev nD) (t : Fin cfg0.N) :
    (dat0 (F := Ideal) V c).flushed 5 t
      = ((cfg0.win 5).blk t).view.read (Elt Ideal)
          (Cert.Sage.layer (n := 100000) (d := 256) (e := 256) (V c main_arg0) (V c main_v20) (V c main_arg3) (V c main_arg4)
            (fun q => V c main_v21 (ix2 (0 : Fin 1) q))) := by
  show (cfg0.win 5).cut (grid0.coords t) ((dat0 V c).after 5 t) = _
  rw [after0_5]
  unfold out0_5
  rw [View.canon_unit_zero hz]
  simp only [View.ld_unit_zero (S := S2000x256) hz, View.ld_unit_zero (S := S256x256) hz, View.ld_unit_zero (S := S1x256) hz]
  obtain ⟨-, -, -, -, -, -, -, -, -, -, -, -, ht⟩ := idx_facts t
  refine funext fun (j : S2000x256.Idx) => ?_
  obtain ⟨p, q, rfl⟩ : ∃ (p : Fin 2000) (q : Fin 256), j = ix2 p q := ⟨j 0, j 1, eq_ix2 j⟩
  have hr : 2000 * t.val + p.val < 100000 := by have := p.isLt; omega
  refine (pay_eq_dense (V c main_arg0) (V c main_v20) (V c main_arg3) (V c main_arg4) (V c main_v21)
    (iblk0 V c 0 t) (iblk0 V c 1 t) (iblk0 V c 2 t) (iblk0 V c 3 t) (iblk0 V c 4 t) ⟨2000 * t.val + p.val, hr⟩ p q
    (fun k => ?_) (fun k => ?_) (fun k => ?_) (fun k => ?_) ?_).trans ?_
  · exact congrArg (V c main_arg0) (emb_features t p k _ rfl)
  · exact congrArg (V c main_v20) (emb_means t p k _ rfl)
  · exact congrArg (V c main_arg3) (emb_selfWeights t k q)
  · exact congrArg (V c main_arg4) (emb_neighWeights t k q)
  · exact congrArg (V c main_v21) (emb_bias t 0 q)
  · exact (congrArg (Cert.Sage.layer (n := 100000) (d := 256) (e := 256) (V c main_arg0) (V c main_v20) (V c main_arg3) (V c main_arg4)
      (fun q => V c main_v21 (ix2 (0 : Fin 1) q))) (emb_out t p q ⟨2000 * t.val + p.val, hr⟩ rfl)).symm

/-- An index of the output array is in point `t`'s block iff each coordinate is in the block's range on its axis. -/
theorem mem_blk (t : Fin cfg0.N) (i : S100000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v22).slice (win0_5.rect t)).set ↔ _
  rw [View.set_slice_whole, Rect.mem_set_unit]
  exact Iff.rfl

/-- Every row of the output array is in the block of the point its row number divided by 2000 names, and that point
    writes its block back. -/
theorem cover (i : S100000x256.Idx) :
    ∃ t : Fin cfg0.N, (cfg0.win 5).flush t = true ∧ i ∈ ((cfg0.win 5).blk t).view.set := by
  have hi0 : (i 0).val < 100000 := (i 0).isLt
  have hi1 : (i 1).val < 256 := (i 1).isLt
  obtain ⟨t, ht⟩ := rows_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- After the first region its output array is the dense layer of the arrays the region finds: the node features, the
    neighbour means, the two weight matrices and the bias row. -/
theorem arr0 (c : Dev nD) :
    (dat0 (F := Ideal) V c).arrAt 5 cfg0.N
      = Cert.Sage.layer (n := 100000) (d := 256) (e := 256) (V c main_arg0) (V c main_v20) (V c main_arg3) (V c main_arg4)
          (fun q => V c main_v21 (ix2 (0 : Fin 1) q)) :=
  (dat0 (F := Ideal) V c).arrAt_eq_of_cover 5 _ (fun t _ => flushed_eq V c t) (fun i => cover i)

end Cert.KernelIdeal.Region0

end
-- ==== Proof.Region1Value.lean ====
/-
  The second region's output array, as one function of the arrays the region finds.

  As in the first region, point `t` of fifty stages rows `2000·t … 2000·t + 1999` of the first layer's output and of
  its neighbour means with the whole second weight matrices and bias row, and forms the clamped sums
  `a[p,q] = max (Σₖ h[p,k]·Ws[k,q] + Σₖ m[p,k]·Wn[k,q] + b[q], 0)`. It then sums the squares of each row along the
  128 features, takes the square root, clamps it below at the small floor, lays it back along the row and divides:
  the stored value at `(p, q)` is `a[p,q] / max (√(Σₖ a[p,k]²), floor)`. A row's norm is taken over that row alone,
  so with row `p` of a block being row `2000·t + p` of the arrays the stored block is block `t` of the normalised
  layer, and the fifty blocks tile the output array.
-/
import proofs.«149797_j18906446037603_1_alg».proof.Proof.Gen.KernelIdeal.Frame
import proofs.«149797_j18906446037603_1_alg».proof.Proof.Spec
import proofs.«149797_j18906446037603_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## A matrix product at an index -/

theorem lhs_dot_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_dot_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_dot_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_dot_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The product of a row block with a weight matrix, accumulated into zero, is at row `p` and feature `q` the sum over
    the 256 shared coordinates of the products of the entries. -/
theorem matmul_zero_apply {φ₁ φ₂ : FTy} (x : FVec Ideal S2000x256 φ₁) (w : FVec Ideal S256x128 φ₂) (p : Fin 2000) (q : Fin 128) :
    matmul dot_S2000x256_S256x128_S2000x128_1_0_0_1_n_n none x w (constant (F := Ideal) S2000x128 .f32 0x00000000#32) (ix2 p q)
      = ∑ k : Fin 256, x (ix2 p k) * w (ix2 k q) := by
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact lhs_dot_0 _ _
    | ⟨1, _⟩ => exact (lhs_dot_1 _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (rhs_dot_0 _ _).trans hk
    | ⟨1, _⟩ => exact rhs_dot_1 _ _)
  rw [el, er]

/-! ## The body's value at an index -/

/-- The layer before the division, at row `p` of a block and feature `q`: the row of the node features and the row
    of the neighbour means, each through its weight matrix, plus the bias, clamped below at zero. -/
def act (x0 x1 : Vec Ideal S2000x256 .f32) (x2 x3 : Vec Ideal S256x128 .f32) (x4 : Vec Ideal S1x128 .f32)
    (p : Fin 2000) (q : Fin 128) : EReal :=
  max (((∑ k : Fin 256, x0 (ix2 p k) * x2 (ix2 k q)) + ∑ k : Fin 256, x1 (ix2 p k) * x3 (ix2 k q)) + x4 (ix2 (0 : Fin 1) q)) 0

/-- The same tile as the body's vector operations build it: two products into zero, their sum, the bias row over
    every row, the maximum with the zero tile. -/
def tile (x0 x1 : Vec Ideal S2000x256 .f32) (x2 x3 : Vec Ideal S256x128 .f32) (x4 : Vec Ideal S1x128 .f32) :
    FVec Ideal S2000x128 .f32 :=
  maximumf
    (addf
      (addf
        (matmul dot_S2000x256_S256x128_S2000x128_1_0_0_1_n_n none
          (truncf .bf16 (shapeCast S2000x256 x0 shapeCasts_S2000x256_S2000x256) bitsLt_bf16_f32)
          (truncf .bf16 x2 bitsLt_bf16_f32) (constant (F := Ideal) S2000x128 .f32 0x00000000#32))
        (matmul dot_S2000x256_S256x128_S2000x128_1_0_0_1_n_n none
          (truncf .bf16 (shapeCast S2000x256 x1 shapeCasts_S2000x256_S2000x256) bitsLt_bf16_f32)
          (truncf .bf16 x3 bitsLt_bf16_f32) (constant (F := Ideal) S2000x128 .f32 0x00000000#32)))
      (broadcastTo S2000x128 (shapeCast S1x128 x4 shapeCasts_S1x128_S1x128) broadcasts_S1x128_S2000x128))
    (broadcast S2000x128 (Scalar.ofBits (F := Ideal) .f32 0x00000000#32))

/-- The tile at an index is the clamped sum: rounding to the narrower format is the identity on the extended reals,
    a cast to the same shape changes nothing, each product into zero is the plain sum, and the bias row is read at
    its only row. -/
theorem tile_apply (x0 x1 : Vec Ideal S2000x256 .f32) (x2 x3 : Vec Ideal S256x128 .f32) (x4 : Vec Ideal S1x128 .f32)
    (p : Fin 2000) (q : Fin 128) : tile x0 x1 x2 x3 x4 (ix2 p q) = act x0 x1 x2 x3 x4 p q := by
  unfold tile act
  rw [maximumf_apply, addf_apply, addf_apply, broadcast_apply, matmul_zero_apply, matmul_zero_apply,
    broadcastTo_1b_ab_apply, shapeCast_self, shapeCast_self, shapeCast_self]
  show max (((∑ k : Fin 256, x0 (ix2 p k) * x2 (ix2 k q)) + ∑ k : Fin 256, x1 (ix2 p k) * x3 (ix2 k q)) + x4 (ix2 (0 : Fin 1) q))
      (Ideal.ofBits .f32 0x00000000#32) = _
  rw [Ideal.ofBits_zero_f32]

/-- The sum along the lanes of a tile, read at row `p`, is the sum of that row's 128 entries. -/
theorem rowSum_apply (v : FVec Ideal S2000x128 .f32) (p : Fin 2000) :
    multiReduction (F := Ideal) .add [1] S2000 v 0x00000000#32 reduces_S2000x128_S2000 (.inl rfl) rfl (ix1 p)
      = ∑ k : Fin 128, v (ix2 p k) := by
  refine (Ideal.multiReduction_add_single v 0x00000000#32 reduces_S2000x128_S2000 (.inl rfl) rfl (ix1 p)).trans ?_
  refine Finset.sum_congr rfl fun k _ => congrArg v (funext fun a => Fin.ext ?_)
  match a with
  | ⟨0, _⟩ => rfl
  | ⟨1, _⟩ => rfl

/-- The body's stored value is the tile divided, row by row, by the row's norm clamped below at the floor. -/
theorem pay_eq (x0 x1 : Vec Ideal S2000x256 .f32) (x2 x3 : Vec Ideal S256x128 .f32) (x4 : Vec Ideal S1x128 .f32) :
    k1_pay1 x0 x1 x2 x3 x4
      = divf (tile x0 x1 x2 x3 x4)
          (broadcastTo S2000x128
            (maximumf
              (sqrt (shapeCast S2000x1
                (multiReduction (F := Ideal) .add [1] S2000 (mulf (tile x0 x1 x2 x3 x4) (tile x0 x1 x2 x3 x4)) 0x00000000#32
                  reduces_S2000x128_S2000 (.inl rfl) rfl) shapeCasts_S2000_S2000x1))
              (broadcast S2000x1 (Scalar.ofBits (F := Ideal) .f32 0x2B8CBCCC#32)))
            broadcasts_S2000x1_S2000x128) := rfl

/-- THE BODY'S VALUE AT ROW `p`, FEATURE `q`: the clamped sum there over the clamped norm of row `p`. -/
theorem pay_apply (x0 x1 : Vec Ideal S2000x256 .f32) (x2 x3 : Vec Ideal S256x128 .f32) (x4 : Vec Ideal S1x128 .f32)
    (p : Fin 2000) (q : Fin 128) :
    k1_pay1 x0 x1 x2 x3 x4 (ix2 p q)
      = Ideal.div (act x0 x1 x2 x3 x4 p q)
          (max (Ideal.sqrt (∑ k : Fin 128, act x0 x1 x2 x3 x4 p k * act x0 x1 x2 x3 x4 p k)) Cert.Sage.normFloor) := by
  rw [pay_eq, divf_apply, Cert.LibKeepdims.broadcastTo_a1_ab_apply, maximumf_apply, broadcast_apply]
  show Ideal.div _ (max (Ideal.sqrt (shapeCast S2000x1 _ shapeCasts_S2000_S2000x1 (ix2 p (0 : Fin 1)))) Cert.Sage.normFloor) = _
  rw [Cert.LibKeepdims.shapeCast_a_a1_apply, rowSum_apply, tile_apply]
  refine congrArg (fun s => Ideal.div _ (max (Ideal.sqrt s) _)) (Finset.sum_congr rfl fun k _ => ?_)
  rw [mulf_apply, tile_apply]

/-- The clamped sum of a block's row `p` is the dense layer at the array's row `r`, once the blocks' rows are the
    array's rows and the weight and bias blocks are the whole arrays. -/
theorem act_eq_dense (H M : S100000x256.Idx → EReal) (Ws Wn : S256x128.Idx → EReal) (b : S1x128.Idx → EReal)
    (B0 B1 : Vec Ideal S2000x256 .f32) (B2 B3 : Vec Ideal S256x128 .f32) (B4 : Vec Ideal S1x128 .f32)
    (p : Fin 2000) (r : Fin 100000)
    (h0 : ∀ k : Fin 256, B0 (ix2 p k) = H (ix2 r k)) (h1 : ∀ k : Fin 256, B1 (ix2 p k) = M (ix2 r k))
    (h2 : B2 = Ws) (h3 : B3 = Wn) (h4 : B4 = b) (q : Fin 128) :
    act B0 B1 B2 B3 B4 p q
      = Cert.Sage.dense (n := 100000) (d := 256) (e := 128) H M Ws Wn (fun q => b (ix2 (0 : Fin 1) q)) r q := by
  subst h2 h3 h4
  unfold act Cert.Sage.dense
  simp only [h0, h1]

/-! ## The blocks the body reads and writes, inside their arrays -/

theorem hz : (![0, 0] : Fin 2 → Nat) = fun _ => 0 := funext fun a => by fin_cases a <;> rfl

/-- The index maps, decided over the 50 points of the grid: the two row-blocked inputs and the output are at block
    row `t`, column block 0; the two weight matrices and the bias are whole. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the node features' block at point `t` is row `2000 t + p` of the array. -/
theorem blk0_apply (c : Dev nD) (t : Fin cfg1.N) (p : Fin 2000) (k : Fin 256) (r : Fin 100000)
    (hr : r.val = 2000 * t.val + p.val) : iblk1 V c 0 t (ix2 p k) = V c main_v22 (ix2 r k) := by
  obtain ⟨e0, e1, -⟩ := idx_facts t
  show V c main_v22 (((cfg1.win 0).blk t).view.emb (ix2 p k)) = V c main_v22 (ix2 r k)
  refine congrArg (V c main_v22) (funext fun a => Fin.ext ?_)
  match a with
  | ⟨0, _⟩ => show win1_0.index t (0 : Fin 2) * 2000 + 1 * p.val = r.val; omega
  | ⟨1, _⟩ => show win1_0.index t (1 : Fin 2) * 256 + 1 * k.val = k.val; omega

/-- Row `p` of the neighbour means' block at point `t` is row `2000 t + p` of the array. -/
theorem blk1_apply (c : Dev nD) (t : Fin cfg1.N) (p : Fin 2000) (k : Fin 256) (r : Fin 100000)
    (hr : r.val = 2000 * t.val + p.val) : iblk1 V c 1 t (ix2 p k) = V c main_v35 (ix2 r k) := by
  obtain ⟨-, -, e0, e1, -⟩ := idx_facts t
  show V c main_v35 (((cfg1.win 1).blk t).view.emb (ix2 p k)) = V c main_v35 (ix2 r k)
  refine congrArg (V c main_v35) (funext fun a => Fin.ext ?_)
  match a with
  | ⟨0, _⟩ => show win1_1.index t (0 : Fin 2) * 2000 + 1 * p.val = r.val; omega
  | ⟨1, _⟩ => show win1_1.index t (1 : Fin 2) * 256 + 1 * k.val = k.val; omega

/-- The first weight matrix's block is the whole matrix at every point. -/
theorem blk2_eq (c : Dev nD) (t : Fin cfg1.N) : iblk1 V c 2 t = V c main_arg6 := by
  obtain ⟨-, -, -, -, e0, e1, -⟩ := idx_facts t
  funext j
  show V c main_arg6 (((cfg1.win 2).blk t).view.emb j) = V c main_arg6 j
  refine congrArg (V c main_arg6) (funext fun a => Fin.ext ?_)
  match a with
  | ⟨0, _⟩ => show win1_2.index t (0 : Fin 2) * 256 + 1 * (j 0).val = (j 0).val; omega
  | ⟨1, _⟩ => show win1_2.index t (1 : Fin 2) * 128 + 1 * (j 1).val = (j 1).val; omega

/-- The second weight matrix's block is the whole matrix at every point. -/
theorem blk3_eq (c : Dev nD) (t : Fin cfg1.N) : iblk1 V c 3 t = V c main_arg7 := by
  obtain ⟨-, -, -, -, -, -, e0, e1, -⟩ := idx_facts t
  funext j
  show V c main_arg7 (((cfg1.win 3).blk t).view.emb j) = V c main_arg7 j
  refine congrArg (V c main_arg7) (funext fun a => Fin.ext ?_)
  match a with
  | ⟨0, _⟩ => show win1_3.index t (0 : Fin 2) * 256 + 1 * (j 0).val = (j 0).val; omega
  | ⟨1, _⟩ => show win1_3.index t (1 : Fin 2) * 128 + 1 * (j 1).val = (j 1).val; omega

/-- The bias's block is the whole row at every point. -/
theorem blk4_eq (c : Dev nD) (t : Fin cfg1.N) : iblk1 V c 4 t = V c main_v36 := by
  obtain ⟨-, -, -, -, -, -, -, -, e0, e1, -⟩ := idx_facts t
  funext j
  show V c main_v36 (((cfg1.win 4).blk t).view.emb j) = V c main_v36 j
  refine congrArg (V c main_v36) (funext fun a => Fin.ext ?_)
  match a with
  | ⟨0, _⟩ => show win1_4.index t (0 : Fin 2) * 1 + 1 * (j 0).val = (j 0).val; omega
  | ⟨1, _⟩ => show win1_4.index t (1 : Fin 2) * 128 + 1 * (j 1).val = (j 1).val; omega

/-! ## What each point writes back, and the whole array -/

/-- WHAT POINT `t` WRITES BACK is block `t` of the normalised layer of the arrays the region finds. -/
theorem flushed_eq (c : Dev nD) (t : Fin cfg1.N) :
    (dat1 V c).flushed 5 t = ((cfg1.win 5).blk t).view.read (Elt Ideal)
      (Cert.Sage.layerNormed (n := 100000) (d := 256) (e := 128) (V c main_v22) (V c main_v35) (V c main_arg6) (V c main_arg7)
          (fun q => V c main_v36 (ix2 (0 : Fin 1) q))) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x128) hz, View.ld_unit_zero (S := S1x128) hz]
  funext j
  obtain ⟨p, q, rfl⟩ : ∃ (p : Fin 2000) (q : Fin 128), j = ix2 p q := ⟨j 0, j 1, eq_ix2 j⟩
  obtain ⟨-, -, -, -, -, -, -, -, -, -, e0, e1⟩ := idx_facts t
  have hp : p.val < 2000 := p.isLt
  have ht : t.val < 50 := t.isLt
  -- the array's row under row `p` of block `t`
  have hr : 2000 * t.val + p.val < 100000 := by omega
  have hemb : ((cfg1.win 5).blk t).view.emb (ix2 p q) = ix2 (⟨2000 * t.val + p.val, hr⟩ : Fin 100000) q :=
    funext fun a => Fin.ext (by
      match a with
      | ⟨0, _⟩ => show win1_5.index t (0 : Fin 2) * 2000 + 1 * p.val = 2000 * t.val + p.val; omega
      | ⟨1, _⟩ => show win1_5.index t (1 : Fin 2) * 128 + 1 * q.val = q.val; omega)
  show k1_pay1 (iblk1 V c 0 t) (iblk1 V c 1 t) (iblk1 V c 2 t) (iblk1 V c 3 t) (iblk1 V c 4 t) (ix2 p q)
    = Cert.Sage.layerNormed (n := 100000) (d := 256) (e := 128) (V c main_v22) (V c main_v35) (V c main_arg6) (V c main_arg7)
        (fun q => V c main_v36 (ix2 (0 : Fin 1) q)) (((cfg1.win 5).blk t).view.emb (ix2 p q))
  rw [hemb]
  refine (pay_apply _ _ _ _ _ p q).trans ?_
  have hact : ∀ k : Fin 128, act (iblk1 V c 0 t) (iblk1 V c 1 t) (iblk1 V c 2 t) (iblk1 V c 3 t) (iblk1 V c 4 t) p k
      = Cert.Sage.dense (n := 100000) (d := 256) (e := 128) (V c main_v22) (V c main_v35) (V c main_arg6) (V c main_arg7)
          (fun q => V c main_v36 (ix2 (0 : Fin 1) q)) (⟨2000 * t.val + p.val, hr⟩ : Fin 100000) k := fun k =>
    act_eq_dense (V c main_v22) (V c main_v35) (V c main_arg6) (V c main_arg7) (V c main_v36)
      (iblk1 V c 0 t) (iblk1 V c 1 t) (iblk1 V c 2 t) (iblk1 V c 3 t) (iblk1 V c 4 t) p ⟨2000 * t.val + p.val, hr⟩
      (fun k => blk0_apply V c t p k _ rfl) (fun k => blk1_apply V c t p k _ rfl)
      (blk2_eq V c t) (blk3_eq V c t) (blk4_eq V c t) k
  simp only [hact]
  rfl

/-- An index of the output array is in point `t`'s block iff each coordinate is in the block's range on its axis. -/
theorem mem_blk (t : Fin cfg1.N) (i : S100000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v37).slice (win1_5.rect t)).set ↔ _
  rw [View.set_slice_whole, Rect.mem_set_unit]
  exact Iff.rfl

/-- Every row of the output array is in the block of the point `row / 2000`, and every point writes its block back. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hlt : (i 0).val / 2000 < 50 := by omega
  obtain ⟨-, -, -, -, -, -, -, -, -, -, e0, e1⟩ := idx_facts ⟨(i 0).val / 2000, hlt⟩
  refine ⟨⟨(i 0).val / 2000, hlt⟩, flush1_5 _, ?_⟩
  rw [mem_blk]
  intro a
  match a with
  | ⟨0, _⟩ =>
    show win1_5.index ⟨(i 0).val / 2000, hlt⟩ (0 : Fin 2) * 2000 ≤ (i 0).val
      ∧ (i 0).val < win1_5.index ⟨(i 0).val / 2000, hlt⟩ (0 : Fin 2) * 2000 + 2000
    have e0' : win1_5.index ⟨(i 0).val / 2000, hlt⟩ (0 : Fin 2) = (i 0).val / 2000 := e0
    omega
  | ⟨1, _⟩ =>
    show win1_5.index ⟨(i 0).val / 2000, hlt⟩ (1 : Fin 2) * 128 ≤ (i 1).val
      ∧ (i 1).val < win1_5.index ⟨(i 0).val / 2000, hlt⟩ (1 : Fin 2) * 128 + 128
    omega

/-- After the second region its output array is the dense layer of the arrays the region finds, each row divided by its
    norm. -/
theorem arr1 (c : Dev nD) :
    (dat1 (F := Ideal) V c).arrAt 5 cfg1.N
      = Cert.Sage.layerNormed (n := 100000) (d := 256) (e := 128) (V c main_v22) (V c main_v35) (V c main_arg6) (V c main_arg7)
          (fun q => V c main_v36 (ix2 (0 : Fin 1) q)) :=
  (dat1 (F := Ideal) V c).arrAt_eq_of_cover 5 _ (fun t _ => flushed_eq V c t) cover

end Cert.KernelIdeal.Region1

end
-- ==== Proof.RefValue.lean ====
/-
  The reference's result as a composition of two dense layers over neighbour means, each layer read at an index.

  The reference computes, layer by layer, `max (h·Ws + mean·Wn + b, 0)` with the neighbour mean taken as the
  neighbour sum DIVIDED by the in-degree clamped below at one, and divides each row of the second layer by its
  Euclidean norm clamped below at a small constant. Read at row `r` and feature `q`, a matrix product is the sum
  over the contracted index of the products of the row of the left factor and the column of the right one, the
  bias laid along the rows reads its entry `q`, and the row norm is the square root of the sum over the row of the
  squares: the specification's layer, term for term.
-/
import proofs.«149797_j18906446037603_1_alg».proof.Proof.Gen.ReferenceIdeal.Read
import proofs.«149797_j18906446037603_1_alg».proof.Proof.Spec
import Idealize.ShloMosaic.Lib.Pipeline.Value
import Idealize.ShloMosaic.Lib.ValueIdx
import Idealize.ShloMosaic.PureOps.Ideal.Laws
import Idealize.ShloMosaic.Lib.IdealHost

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

variable {F : FTy → Type} [FloatOps F]

/-! ## The operations' composition, named -/

/-- The source indices with the negative ones wrapped by the node count. -/
def wrapped (src : IVec S800000 32) : IVec S800000 32 :=
  select (cmpi .slt src (broadcastInDim S800000 ![] bcast_S_S800000 (constantI S_ 32 0#32)))
    (addi src (broadcastInDim S800000 ![] bcast_S_S800000 (constantI S_ 32 100000#32))) src

/-- The rows of `h` at the edges' sources, added into the rows of their destinations. -/
def nbrSum (h : FVec F S100000x256 .f32) (src dst : IVec S800000 32) : FVec F S100000x256 .f32 :=
  Host.scatterAdd scatter_S100000x256_S800000x1_S800000x256_1_0_0_1
    (broadcastInDim S100000x256 ![] bcast_S_S100000x256 (constant S_ .f32 0x00000000#32))
    (broadcastInDim S800000x1 ![0] bcast_S800000_S800000x1_0 dst)
    (Host.gather gather_S100000x256_S800000x1_S800000x256_1_0_n_n_0_1_1256 h
      (broadcastInDim S800000x1 ![0] bcast_S800000_S800000x1_0 (wrapped src)))

/-- A node's in-degree clamped below at one. -/
def clampedDeg (dst : IVec S800000 32) : FVec F S100000 .f32 :=
  maximumf
    (Host.scatterAdd scatter_S100000_S800000x1_S800000_n_0_0_1
      (broadcastInDim S100000 ![] bcast_S_S100000 (constant S_ .f32 0x00000000#32))
      (broadcastInDim S800000x1 ![0] bcast_S800000_S800000x1_0 dst)
      (broadcastInDim S800000 ![] bcast_S_S800000 (constant S_ .f32 0x3F800000#32)))
    (broadcastInDim S100000 ![] bcast_S_S100000 (constant S_ .f32 0x3F800000#32))

/-- A per-node value laid along every feature of the node's row. -/
def alongRow (x : FVec F S100000 .f32) : FVec F S100000x256 .f32 :=
  broadcastInDim S100000x256 ![0, 1] bcast_S100000x1_S100000x256_0_1 (broadcastInDim S100000x1 ![0] bcast_S100000_S100000x1_0 x)

/-- The neighbour mean as the reference takes it: the neighbour sum divided by the clamped degree. -/
def mean (h : FVec F S100000x256 .f32) (src dst : IVec S800000 32) : FVec F S100000x256 .f32 :=
  Host.divf (nbrSum h src dst) (alongRow (clampedDeg dst))

/-- The first layer: both products, the bias along the rows, the clamp at zero. -/
def layer1 (h mean : FVec F S100000x256 .f32) (ws wn : FVec F S256x256 .f32) (b : FVec F S256 .f32) : FVec F S100000x256 .f32 :=
  maximumf
    (addf (addf (Host.dotGeneral dot_S100000x256_S256x256_S100000x256_1_0_0_1_n_n none h ws) (Host.dotGeneral dot_S100000x256_S256x256_S100000x256_1_0_0_1_n_n none mean wn))
      (broadcastInDim S100000x256 ![0, 1] bcast_S1x256_S100000x256_0_1 (broadcastInDim S1x256 ![1] bcast_S256_S1x256_1 b)))
    (broadcastInDim S100000x256 ![] bcast_S_S100000x256 (constant S_ .f32 0x00000000#32))

/-- The second layer before its rows are normalised. -/
def layer2 (h mean : FVec F S100000x256 .f32) (ws wn : FVec F S256x128 .f32) (b : FVec F S128 .f32) : FVec F S100000x128 .f32 :=
  maximumf
    (addf (addf (Host.dotGeneral dot_S100000x256_S256x128_S100000x128_1_0_0_1_n_n none h ws) (Host.dotGeneral dot_S100000x256_S256x128_S100000x128_1_0_0_1_n_n none mean wn))
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- Each row divided by its norm, the norm clamped below. -/
def normed (a : FVec F S100000x128 .f32) : FVec F S100000x128 .f32 :=
  Host.divf a
    (broadcastInDim S100000x128 ![0, 1] bcast_S100000x1_S100000x128_0_1
      (maximumf
        (Host.sqrt (broadcastInDim S100000x1 ![0] bcast_S100000_S100000x1_0
          (Host.reduceAdd (mulf a a) (constant S_ .f32 0x00000000#32) reducesTo_S100000x128_S100000_d1 h_S_)))
        (broadcastInDim S100000x1 ![] bcast_S_S100000x1 (constant S_ .f32 0x2B8CBCCC#32))))

/-- The reference's last stage is the normalised second layer of the first layer's output and of its neighbour means. -/
theorem result_eq (x0 : FVec F S100000x256 .f32) (x1 x2 : IVec S800000 32) (x3 x4 : FVec F S256x256 .f32) (x5 : FVec F S256 .f32)
    (x6 x7 : FVec F S256x128 .f32) (x8 : FVec F S128 .f32) :
    val_main_v56 (F := F) x0 x1 x2 x3 x4 x5 x6 x7 x8
      = normed (layer2 (layer1 x0 (mean x0 x1 x2) x3 x4 x5) (mean (layer1 x0 (mean x0 x1 x2) x3 x4 x5) x1 x2) x6 x7 x8) := rfl

/-! ## The pieces read at an index, on the extended reals -/

/-- A product with a square right factor at row `i 0`, column `i 1`. -/
theorem dotA_apply (l : FVec Ideal S100000x256 .f32) (r : FVec Ideal S256x256 .f32) (i : S100000x256.Idx) :
    Host.dotGeneral dot_S100000x256_S256x256_S100000x256_1_0_0_1_n_n none l r i = ∑ k : Fin 256, l (ix2 (n0 := 100000) (n1 := 256) (i 0) k) * r (ix2 (n0 := 256) (n1 := 256) k (i 1)) := by
  refine (val_main_v19_apply l r i).trans (Finset.sum_congr rfl fun k _ => ?_)
  have el : lidx_main_v19 i k = ix2 (n0 := 100000) (n1 := 256) (i 0) k := funext fun a => Fin.ext (by match a with | ⟨0, _⟩ => rfl | ⟨1, _⟩ => rfl)
  have er : ridx_main_v19 i k = ix2 (n0 := 256) (n1 := 256) k (i 1) := funext fun a => Fin.ext (by match a with | ⟨0, _⟩ => rfl | ⟨1, _⟩ => rfl)
  rw [el, er]

/-- A product with the narrower right factor at row `i 0`, column `i 1`. -/
theorem dotB_apply (l : FVec Ideal S100000x256 .f32) (r : FVec Ideal S256x128 .f32) (i : S100000x128.Idx) :
    Host.dotGeneral dot_S100000x256_S256x128_S100000x128_1_0_0_1_n_n none l r i = ∑ k : Fin 256, l (ix2 (n0 := 100000) (n1 := 256) (i 0) k) * r (ix2 (n0 := 256) (n1 := 128) k (i 1)) := by
  simp only [Host.dotGeneral]
  rw [Ideal.dotGeneral_apply, ← Equiv.sum_comp (ValueIdx.contrEquiv1 dot_S100000x256_S256x128_S100000x128_1_0_0_1_n_n 256 rfl rfl).symm]
  refine Finset.sum_congr rfl fun k _ => ?_
  have hk := ValueIdx.contrEquiv1_symm_val dot_S100000x256_S256x128_S100000x128_1_0_0_1_n_n 256 rfl rfl k
  have el : dot_S100000x256_S256x128_S100000x128_1_0_0_1_n_n.lhsIdx i ((ValueIdx.contrEquiv1 dot_S100000x256_S256x128_S100000x128_1_0_0_1_n_n 256 rfl rfl).symm k) = ix2 (n0 := 100000) (n1 := 256) (i 0) k := funext fun a => Fin.ext (by
    match a with
    | ⟨0, _⟩ => exact lhs_main_v45_0 _ _
    | ⟨1, _⟩ => exact (lhs_main_v45_1 _ _).trans hk)
  have er : dot_S100000x256_S256x128_S100000x128_1_0_0_1_n_n.rhsIdx i ((ValueIdx.contrEquiv1 dot_S100000x256_S256x128_S100000x128_1_0_0_1_n_n 256 rfl rfl).symm k) = ix2 (n0 := 256) (n1 := 128) k (i 1) := funext fun a => Fin.ext (by
    match a with
    | ⟨0, _⟩ => exact (rhs_main_v45_0 _ _).trans hk
    | ⟨1, _⟩ => exact rhs_main_v45_1 _ _)
  rw [el, er]

/-- The first bias laid along the rows reads its entry at the column. -/
theorem biasA_apply (b : FVec Ideal S256 .f32) (i : S100000x256.Idx) :
    broadcastInDim S100000x256 ![0, 1] bcast_S1x256_S100000x256_0_1 (broadcastInDim S1x256 ![1] bcast_S256_S1x256_1 b) i = b (ix1 (n := 256) (i 1)) := by
  generalize hy : broadcastInDim S1x256 ![1] bcast_S256_S1x256_1 b = y
  rw [broadcastInDim_apply _ bcast_S1x256_S100000x256_0_1 y i (ix2 (n0 := 1) (n1 := 256) (0 : Fin 1) (i 1)) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)])]
  subst hy
  exact broadcastInDim_apply _ bcast_S256_S1x256_1 b _ (ix1 (n := 256) (i 1)) (fun a => match a with
    | ⟨0, _⟩ => by show (i 1).val = if (256 : Nat) = 1 then 0 else (i 1).val; rw [if_neg (by decide)])

/-- The second bias laid along the rows reads its entry at the column. -/
theorem biasB_apply (b : FVec Ideal S128 .f32) (i : S100000x128.Idx) :
    broadcastInDim S100000x128 ![0, 1] bcast_S1x128_S100000x128_0_1 (broadcastInDim S1x128 ![1] bcast_S128_S1x128_1 b) i = b (ix1 (n := 128) (i 1)) := by
  generalize hy : broadcastInDim S1x128 ![1] bcast_S128_S1x128_1 b = y
  rw [broadcastInDim_apply _ bcast_S1x128_S100000x128_0_1 y i (ix2 (n0 := 1) (n1 := 128) (0 : Fin 1) (i 1)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  subst hy
  exact broadcastInDim_apply _ bcast_S128_S1x128_1 b _ (ix1 (n := 128) (i 1)) (fun a => match a with
    | ⟨0, _⟩ => by show (i 1).val = if (128 : Nat) = 1 then 0 else (i 1).val; rw [if_neg (by decide)])

/-- The zero the layers clamp at. -/
theorem zeroA_apply (i : S100000x256.Idx) :
    broadcastInDim S100000x256 ![] bcast_S_S100000x256 (constant (F := Ideal) S_ .f32 0x00000000#32) i = 0 :=
  (broadcastInDim_apply _ bcast_S_S100000x256 _ i ix0 (fun a => a.elim0)).trans Ideal.ofBits_zero_f32
theorem zeroB_apply (i : S100000x128.Idx) :
    broadcastInDim S100000x128 ![] bcast_S_S100000x128 (constant (F := Ideal) S_ .f32 0x00000000#32) i = 0 :=
  (broadcastInDim_apply _ bcast_S_S100000x128 _ i ix0 (fun a => a.elim0)).trans Ideal.ofBits_zero_f32

/-- The first layer is the specification's. -/
theorem layer1_eq (h mean : FVec Ideal S100000x256 .f32) (ws wn : FVec Ideal S256x256 .f32) (b : FVec Ideal S256 .f32) :
    layer1 (F := Ideal) h mean ws wn b = Cert.Sage.layer (n := 100000) (d := 256) (e := 256) h mean ws wn (fun q => b (ix1 (n := 256) q)) := by
  funext i
  show max (Host.dotGeneral dot_S100000x256_S256x256_S100000x256_1_0_0_1_n_n none h ws i + Host.dotGeneral dot_S100000x256_S256x256_S100000x256_1_0_0_1_n_n none mean wn i
      + broadcastInDim S100000x256 ![0, 1] bcast_S1x256_S100000x256_0_1 (broadcastInDim S1x256 ![1] bcast_S256_S1x256_1 b) i)
      (broadcastInDim S100000x256 ![] bcast_S_S100000x256 (constant (F := Ideal) S_ .f32 0x00000000#32) i) = _
  rw [dotA_apply, dotA_apply, biasA_apply, zeroA_apply]
  rfl

/-- The second layer before normalisation, at an index. -/
theorem layer2_apply (h mean : FVec Ideal S100000x256 .f32) (ws wn : FVec Ideal S256x128 .f32) (b : FVec Ideal S128 .f32) (i : S100000x128.Idx) :
    layer2 (F := Ideal) h mean ws wn b i = Cert.Sage.dense (n := 100000) (d := 256) (e := 128) h mean ws wn (fun q => b (ix1 (n := 128) q)) (i 0) (i 1) := by
  show max (Host.dotGeneral dot_S100000x256_S256x128_S100000x128_1_0_0_1_n_n none h ws i + Host.dotGeneral dot_S100000x256_S256x128_S100000x128_1_0_0_1_n_n none mean wn i
      + broadcastInDim S100000x128 ![0, 1] bcast_S1x128_S100000x128_0_1 (broadcastInDim S1x128 ![1] bcast_S128_S1x128_1 b) i)
      (broadcastInDim S100000x128 ![] bcast_S_S100000x128 (constant (F := Ideal) S_ .f32 0x00000000#32) i) = _
  rw [dotB_apply, dotB_apply, biasB_apply, zeroB_apply]
  rfl

/-- The sum of a row, from zero. -/
theorem rowSum_apply (y : FVec Ideal S100000x128 .f32) (j : S100000.Idx) :
    Host.reduceAdd y (constant S_ .f32 0x00000000#32) reducesTo_S100000x128_S100000_d1 h_S_ j = ∑ k : Fin 128, y (ix2 (n0 := 100000) (n1 := 128) (j 0) k) := by
  simp only [Host.reduceAdd, Ideal.hostReduceAdd_def]
  rw [Ideal.hostReduceAdd_single reducesTo_S100000x128_S100000_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

/-- The clamped row norm laid along the row, at an index. -/
theorem normCol_apply (a : FVec Ideal S100000x128 .f32) (i : S100000x128.Idx) :
    broadcastInDim S100000x128 ![0, 1] bcast_S100000x1_S100000x128_0_1
      (maximumf
        (Host.sqrt (broadcastInDim S100000x1 ![0] bcast_S100000_S100000x1_0
          (Host.reduceAdd (mulf a a) (constant S_ .f32 0x00000000#32) reducesTo_S100000x128_S100000_d1 h_S_)))
        (broadcastInDim S100000x1 ![] bcast_S_S100000x1 (constant S_ .f32 0x2B8CBCCC#32))) i
      = max (Ideal.sqrt (∑ k : Fin 128, a (ix2 (n0 := 100000) (n1 := 128) (i 0) k) * a (ix2 (n0 := 100000) (n1 := 128) (i 0) k))) Cert.Sage.normFloor := by
  generalize hs : Host.reduceAdd (mulf a a) (constant S_ .f32 0x00000000#32) reducesTo_S100000x128_S100000_d1 h_S_ = s
  generalize hy : (maximumf
        (Host.sqrt (broadcastInDim S100000x1 ![0] bcast_S100000_S100000x1_0 s))
        (broadcastInDim S100000x1 ![] bcast_S_S100000x1 (constant (F := Ideal) S_ .f32 0x2B8CBCCC#32))) = y
  rw [broadcastInDim_apply _ bcast_S100000x1_S100000x128_0_1 y i (ix2 (n0 := 100000) (n1 := 1) (i 0) (0 : Fin 1)) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])]
  subst hy
  show max (Ideal.sqrt (broadcastInDim S100000x1 ![0] bcast_S100000_S100000x1_0 s (ix2 (n0 := 100000) (n1 := 1) (i 0) (0 : Fin 1))))
      (broadcastInDim S100000x1 ![] bcast_S_S100000x1 (constant (F := Ideal) S_ .f32 0x2B8CBCCC#32) (ix2 (n0 := 100000) (n1 := 1) (i 0) (0 : Fin 1))) = _
  rw [broadcastInDim_apply _ bcast_S100000_S100000x1_0 s _ (ix1 (n := 100000) (i 0)) (fun a => match a with
    | ⟨0, _⟩ => by show (i 0).val = if (100000 : Nat) = 1 then 0 else (i 0).val; rw [if_neg (by decide)]),
    broadcastInDim_apply _ bcast_S_S100000x1 _ _ ix0 (fun a => a.elim0)]
  subst hs
  rw [rowSum_apply]
  rfl

/-- A normalised array at an index: the entry over its row's clamped norm. -/
theorem normed_apply (a : FVec Ideal S100000x128 .f32) (i : S100000x128.Idx) :
    normed a i = Ideal.div (a i) (max (Ideal.sqrt (∑ k : Fin 128, a (ix2 (n0 := 100000) (n1 := 128) (i 0) k) * a (ix2 (n0 := 100000) (n1 := 128) (i 0) k))) Cert.Sage.normFloor) := by
  unfold normed
  rw [ValueIdx.hostDivf_apply, normCol_apply]

/-- The normalised second layer is the specification's. -/
theorem layer2_eq (h mean : FVec Ideal S100000x256 .f32) (ws wn : FVec Ideal S256x128 .f32) (b : FVec Ideal S128 .f32) :
    normed (layer2 (F := Ideal) h mean ws wn b) = Cert.Sage.layerNormed (n := 100000) (d := 256) (e := 128) h mean ws wn (fun q => b (ix1 (n := 128) q)) := by
  funext i
  rw [normed_apply]
  unfold Cert.Sage.layerNormed
  simp only [layer2_apply]

/-! ## The mean's factors at an index -/

/-- A per-node value laid along its row reads, at `(r, q)`, the node's value. -/
theorem alongRow_apply (x : FVec Ideal S100000 .f32) (i : S100000x256.Idx) :
    alongRow x i = x (ValueIdx.ix1 (n := 100000) (i 0)) := by
  unfold alongRow
  generalize hy : broadcastInDim S100000x1 ![0] bcast_S100000_S100000x1_0 x = y
  rw [broadcastInDim_apply _ bcast_S100000x1_S100000x256_0_1 y i (ValueIdx.ix2 (n0 := 100000) (n1 := 1) (i 0) (0 : Fin 1)) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])]
  subst hy
  exact broadcastInDim_apply _ bcast_S100000_S100000x1_0 x _ (ValueIdx.ix1 (n := 100000) (i 0)) (fun a => match a with
    | ⟨0, _⟩ => by show (i 0).val = if (100000 : Nat) = 1 then 0 else (i 0).val; rw [if_neg (by decide)])

/-- The constant one at every node. -/
theorem one_apply (j : S100000.Idx) :
    broadcastInDim S100000 ![] bcast_S_S100000 (constant (F := Ideal) S_ .f32 0x3F800000#32) j = 1 :=
  (ValueIdx.broadcastInDim_scalar_apply bcast_S_S100000 _ j).trans Cert.Sage.ofBits_one

/-- A degree clamped below at one is not zero. -/
theorem clampedDeg_ne_zero (dst : IVec S800000 32) (j : S100000.Idx) : clampedDeg (F := Ideal) dst j ≠ 0 := by
  unfold clampedDeg
  rw [ValueIdx.maximumf_apply, one_apply]
  exact Cert.Sage.max_one_ne_zero _

end Cert.ReferenceIdeal.RefValue

end
-- ==== Proof.lean ====
/-
  A two-layer mean-aggregating graph network as a row-blocked kernel, against its array-level reference, over the
  extended reals.

  Both programs compute, for each of two layers, `max (h·Ws + mean·Wn + b, 0)`, where `mean` is the mean over a node's
  in-neighbours of the rows of `h`, and then divide each row of the second layer by its Euclidean norm clamped below
  at a small constant. The kernel forms the neighbour sums on the host exactly as the reference does (the same gather
  of source rows and the same addition into destination rows), and runs each dense layer as a grid of fifty blocks of
  two thousand rows: a row of a layer's output depends on the same row of `h` and of `mean` only, so the blocks
  together are the whole-array layer (the sums over the contracted index are the same sums, the narrowing of the
  factors before the products changes no extended real). The one difference in arithmetic is how the mean is taken:
  the kernel multiplies the neighbour sum by `1 / max (deg, 1)`, the reference divides it by `max (deg, 1)`. The
  clamped degree is at least one, hence not zero, and division by a divisor other than zero is the product with its
  inverse on every extended real, so the two means are one array whatever the inputs hold: no use is made of the
  inputs being finite.
-/
import proofs.«149797_j18906446037603_1_alg».proof.Defs
import proofs.«149797_j18906446037603_1_alg».proof.Proof.Gen.Kernel
import proofs.«149797_j18906446037603_1_alg».proof.Proof.Gen.Kernel.Skeleton
import proofs.«149797_j18906446037603_1_alg».proof.Proof.Gen.Kernel.Launch
import proofs.«149797_j18906446037603_1_alg».proof.Proof.Gen.Kernel.Points
import proofs.«149797_j18906446037603_1_alg».proof.Proof.Gen.Kernel.Frame
import proofs.«149797_j18906446037603_1_alg».proof.Proof.Gen.KernelIdeal
import proofs.«149797_j18906446037603_1_alg».proof.Proof.Gen.KernelIdeal.Skeleton
import proofs.«149797_j18906446037603_1_alg».proof.Proof.Gen.KernelIdeal.Launch
import proofs.«149797_j18906446037603_1_alg».proof.Proof.Gen.KernelIdeal.Points
import proofs.«149797_j18906446037603_1_alg».proof.Proof.Gen.KernelIdeal.Frame
import proofs.«149797_j18906446037603_1_alg».proof.Proof.Gen.ReferenceIdeal
import proofs.«149797_j18906446037603_1_alg».proof.Proof.Gen.Pre_finite_inputs
import proofs.«149797_j18906446037603_1_alg».proof.Proof.Gen.ReferenceIdeal.Run
import proofs.«149797_j18906446037603_1_alg».proof.Proof.Gen.ReferenceIdeal.Read
import proofs.«149797_j18906446037603_1_alg».proof.Proof.KernelValue
import proofs.«149797_j18906446037603_1_alg».proof.Proof.Region0Value
import proofs.«149797_j18906446037603_1_alg».proof.Proof.Region1Value
import proofs.«149797_j18906446037603_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-! ## The two programs' arrays are one function of the inputs -/

/-- The neighbour mean taken as a product with the reciprocal degree is the mean taken as a quotient: the
    neighbour sums and the clamped degrees are the same terms, and the clamped degree is not zero. -/
theorem mean_eq (h : FVec Ideal Cert.KernelIdeal.S100000x256 .f32) (src dst : IVec Cert.KernelIdeal.S800000 32) :
    Cert.KernelIdeal.HostValue.mean (F := Ideal) h src dst = Cert.ReferenceIdeal.RefValue.mean (F := Ideal) h src dst := by
  have hN : Cert.KernelIdeal.HostValue.nbrSum (F := Ideal) h src dst = Cert.ReferenceIdeal.RefValue.nbrSum (F := Ideal) h src dst := rfl
  have hD : Cert.KernelIdeal.HostValue.clampedDeg (F := Ideal) dst = Cert.ReferenceIdeal.RefValue.clampedDeg (F := Ideal) dst := rfl
  funext i
  unfold Cert.KernelIdeal.HostValue.mean Cert.ReferenceIdeal.RefValue.mean
  rw [ValueIdx.mulf_apply, ValueIdx.hostDivf_apply, Cert.KernelIdeal.HostValue.alongRow_apply,
    Cert.ReferenceIdeal.RefValue.alongRow_apply, Cert.KernelIdeal.HostValue.recipDeg_apply, hN, hD]
  exact Cert.Sage.mul_recip_eq_div _ _ (Cert.ReferenceIdeal.RefValue.clampedDeg_ne_zero dst _)

/-- The first layer's output is the reference's. -/
theorem hidden_eq (x0 : FVec Ideal Cert.KernelIdeal.S100000x256 .f32) (x1 x2 : IVec Cert.KernelIdeal.S800000 32)
    (x3 x4 : FVec Ideal Cert.KernelIdeal.S256x256 .f32) (x5 : FVec Ideal Cert.KernelIdeal.S256 .f32) :
    Cert.KernelIdeal.FinalValue.hidden x0 x1 x2 x3 x4 x5
      = Cert.ReferenceIdeal.RefValue.layer1 (F := Ideal) x0 (Cert.ReferenceIdeal.RefValue.mean x0 x1 x2) x3 x4 x5 := by
  unfold Cert.KernelIdeal.FinalValue.hidden
  rw [mean_eq, Cert.ReferenceIdeal.RefValue.layer1_eq]

/-- The kernel's result is the reference's last stage. -/
theorem result_eq (x0 : FVec Ideal Cert.KernelIdeal.S100000x256 .f32) (x1 x2 : IVec Cert.KernelIdeal.S800000 32)
    (x3 x4 : FVec Ideal Cert.KernelIdeal.S256x256 .f32) (x5 : FVec Ideal Cert.KernelIdeal.S256 .f32)
    (x6 x7 : FVec Ideal Cert.KernelIdeal.S256x128 .f32) (x8 : FVec Ideal Cert.KernelIdeal.S128 .f32) :
    Cert.ReferenceIdeal.Read.val_main_v56 (F := Ideal) x0 x1 x2 x3 x4 x5 x6 x7 x8
      = Cert.KernelIdeal.FinalValue.result x0 x1 x2 x3 x4 x5 x6 x7 x8 := by
  rw [Cert.ReferenceIdeal.RefValue.result_eq, Cert.ReferenceIdeal.RefValue.layer2_eq]
  unfold Cert.KernelIdeal.FinalValue.result
  rw [hidden_eq, mean_eq]

/-! ## The claims -/

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- Both runs end with the result array at one function of the launch arrays, which agree. -/
theorem algebraic : Cert.algebraic_KernelIdeal_ReferenceIdeal := by
  intro m ρ m' ρ' _ hagree
  refine ⟨fun c => Cert.KernelIdeal.FinalValue.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.FinalValue.run m ρ Cert.KernelIdeal.Region0.arr0 Cert.KernelIdeal.Region1.arr1, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v56_eq, e0, e1, e2, e3, e4, e5, e6, e7, e8]
  exact result_eq _ _ _ _ _ _ _ _ _

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
